-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S4096x4096 : Shape := ⟨2, ![4096, 4096]⟩
abbrev S4096x16 : Shape := ⟨2, ![4096, 16]⟩
abbrev S16x4096 : Shape := ⟨2, ![16, 4096]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  main_v18

def fn {F : FTy → Type} [FloatOps F] (main_arg0 : FVec F S4096x8192 .f32) (main_arg1 : FVec F S4096x4096 .f32) (main_arg2 : FVec F S4096x16 .f32) (main_arg3 : FVec F S16x4096 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_v13 main_v16
-- ==== Kernel.lean ====
abbrev S4096x8192 : Shape := ⟨2, ![4096, 8192]⟩
abbrev S4096x4096 : Shape := ⟨2, ![4096, 4096]⟩
abbrev S4096x16 : Shape := ⟨2, ![4096, 16]⟩
abbrev S16x4096 : Shape := ⟨2, ![16, 4096]⟩
abbrev S512x1024 : Shape := ⟨2, ![512, 1024]⟩
abbrev S512x16 : Shape := ⟨2, ![512, 16]⟩
abbrev S16x1024 : Shape := ⟨2, ![16, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x8192, .f32⟩
  | .local _ .vmem, ⟨0, _⟩ => ⟨S512x1024, .f32⟩
  | .local _ .vmem, ⟨1, _⟩ => ⟨S512x1024, .f32⟩
  | .local _ .vmem, ⟨2, _⟩ => ⟨S512x16, .f32⟩
  | .local _ .vmem, ⟨3, _⟩ => ⟨S512x16, .f32⟩
  | .local _ .vmem, ⟨4, _⟩ => ⟨S16x1024, .f32⟩
  | .local _ .vmem, ⟨5, _⟩ => ⟨S16x1024, .f32⟩
  | .local _ .vmem, ⟨6, _⟩ => ⟨S1024x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x16_S512x16_0_0 : ∀ a, (![0, 0] : Fin 2 → Nat) a + S512x16.size a ≤ S512x16.size a
  h_S512x16 : 0 < S512x16.numel
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1024x1024_S1024x1024_0_0 : ∀ a, (![0, 0] : Fin 2 → Nat) a + S1024x1024.size a ≤ S1024x1024.size a
  h_S1024x1024 : 0 < S1024x1024.numel
  dot_S512x16_S16x1024_S512x1024_1_0_0_1_n_n_wf : DotDims.WF S512x16 S16x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x4096.size a
  hwx0_0 : ∀ i : grid0.Coords, EltTy.bits .f32 = 32 ∨ (Rect.block (s := S4096x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S4096x16.size a
  hwx0_1 : ∀ i : grid0.Coords, EltTy.bits .f32 = 32 ∨ (Rect.block (s := S4096x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .f32 = 32 ∨ (Rect.block (s := S16x4096) S16x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .f32 = 32 ∨ (Rect.block (s := S4096x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x8192.size a
  hwx0_4 : ∀ i : grid0.Coords, EltTy.bits .f32 = 32 ∨ (Rect.block (s := S4096x8192) S512x1024.size (cc0_transform_4 i) (hinb0_4 i)).WholeWords (EltTy.packing .f32)

variable [Facts₀]

def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x8192 : Shape := ⟨2, ![4096, 8192]⟩
abbrev S4096x4096 : Shape := ⟨2, ![4096, 4096]⟩
abbrev S4096x16 : Shape := ⟨2, ![4096, 16]⟩
abbrev S16x4096 : Shape := ⟨2, ![16, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S4096x16, .f32⟩
  | .hbm, ⟨3, _⟩ => ⟨S16x4096, .f32⟩
  | .hbm, ⟨4, _⟩ => ⟨S4096x4096, .f32⟩
  | .hbm, ⟨5, _⟩ => ⟨S4096x4096, .f32⟩
  | .hbm, ⟨6, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  dot_S4096x16_S16x4096_S4096x4096_1_0_0_1_n_n_wf : DotDims.WF S4096x16 S16x4096 S4096x4096 [1] [0] [0] [1] [] []
  dot_S4096x4096_S4096x8192_S4096x8192_1_0_0_1_n_n_wf : DotDims.WF S4096x4096 S4096x8192 S4096x8192 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Spec.lean ====
/-
  The function both programs compute, stated once over the whole argument arrays, and the one law of sums
  that joins their two arrangements.

  For a row `i` and a column `j`,
    out i j = ∑ k < 4096, (W i k + ∑ r < 16, A i r * B r k) * X k j
  on the extended reals: the low-rank product `A · B` added to the weight entry by entry, and the sum contracted with
  `X`. The reference forms the 4096-term sum at once. The kernel forms it in four runs of 1024 consecutive `k`, each
  run added to what the runs before it left, starting from zero. Addition on the extended reals is commutative and
  associative (they are an additive commutative monoid, `⊥ + ⊤ = ⊥` included), so the two arrangements agree with no
  appeal to finiteness.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Lora

open Idealize.ShloMosaic Idealize.ShloMosaic.ValueIdx

/-- The shapes of the four arguments (`X` and the result share theirs). -/
abbrev SX : Shape := ⟨2, ![4096, 8192]⟩
abbrev SW : Shape := ⟨2, ![4096, 4096]⟩
abbrev SA : Shape := ⟨2, ![4096, 16]⟩
abbrev SB : Shape := ⟨2, ![16, 4096]⟩

/-- Entry `(i, k)` of the effective weight `W + A · B`. -/
def weff (W : SW.Idx → EReal) (A : SA.Idx → EReal) (B : SB.Idx → EReal) (i k : Fin 4096) : EReal :=
  W (ix2 i k) + ∑ r : Fin 16, A (ix2 i r) * B (ix2 r k)

/-- THE RESULT: `(W + A · B) · X`, entry by entry. -/
def G (X : SX.Idx → EReal) (W : SW.Idx → EReal) (A : SA.Idx → EReal) (B : SB.Idx → EReal) : SX.Idx → EReal :=
  fun idx => ∑ k : Fin 4096, weff W A B (idx 0) k * X (ix2 k (idx 1))

/-- The `k`-th term of entry `(i, j)` of `(W + A · B) · X`, as a function of natural numbers (zero outside the
    arrays, where it is never read): the form in which the sum over `k` is cut into runs and in which a block's
    entries are addressed by arithmetic on the block's position. -/
def term (X : SX.Idx → EReal) (W : SW.Idx → EReal) (A : SA.Idx → EReal) (B : SB.Idx → EReal) (i j k : ℕ) : EReal :=
  if h : i < 4096 ∧ j < 8192 ∧ k < 4096 then weff W A B ⟨i, h.1⟩ ⟨k, h.2.2⟩ * X (ix2 ⟨k, h.2.2⟩ ⟨j, h.2.1⟩) else 0

/-- Inside the arrays the term is the product of the effective weight's entry and `X`'s. -/
theorem term_of_lt (X : SX.Idx → EReal) (W : SW.Idx → EReal) (A : SA.Idx → EReal) (B : SB.Idx → EReal) {i j k : ℕ}
    (hi : i < 4096) (hj : j < 8192) (hk : k < 4096) :
    term X W A B i j k = weff W A B ⟨i, hi⟩ ⟨k, hk⟩ * X (ix2 ⟨k, hk⟩ ⟨j, hj⟩) :=
  dif_pos ⟨hi, hj, hk⟩

/-- The share of entry `(i, j)` that the `s`-th run of 1024 consecutive `k` contributes. -/
def share (X : SX.Idx → EReal) (W : SW.Idx → EReal) (A : SA.Idx → EReal) (B : SB.Idx → EReal) (i j s : ℕ) : EReal :=
  ∑ kk : Fin 1024, term X W A B i j (1024 * s + kk.val)

/-- The result's entry as the sum of its terms. -/
theorem G_eq_sum_term (X : SX.Idx → EReal) (W : SW.Idx → EReal) (A : SA.Idx → EReal) (B : SB.Idx → EReal)
    (i : Fin 4096) (j : Fin 8192) :
    G X W A B (ix2 i j) = ∑ k : Fin 4096, term X W A B i.val j.val k.val :=
  Finset.sum_congr rfl fun k _ => (term_of_lt X W A B i.isLt j.isLt k.isLt).symm

/-- A sum over 4096 consecutive naturals is the sum, over its four runs of 1024, of each run's sum: only the grouping
    of the terms changes, which a commutative monoid does not see. -/
theorem sum_four_runs {β : Type*} [AddCommMonoid β] (f : ℕ → β) :
    ∑ k : Fin 4096, f k.val = ∑ s ∈ Finset.range 4, ∑ kk : Fin 1024, f (1024 * s + kk.val) := by
  rw [← Fin.sum_univ_eq_sum_range (fun s => ∑ kk : Fin 1024, f (1024 * s + kk.val)) 4]
  show ∑ k : Fin (4 * 1024), f k.val = _
  rw [← Equiv.sum_comp (finProdFinEquiv (m := 4) (n := 1024)) (fun k : Fin (4 * 1024) => f k.val),
    Fintype.sum_prod_type]
  refine Finset.sum_congr rfl fun a _ => Finset.sum_congr rfl fun b _ => ?_
  refine congrArg f ?_
  show b.val + 1024 * a.val = 1024 * a.val + b.val
  omega

/-- THE LAW THAT JOINS THE TWO SIDES: the result's entry is the sum of its four runs' shares. -/
theorem G_eq_four_shares (X : SX.Idx → EReal) (W : SW.Idx → EReal) (A : SA.Idx → EReal) (B : SB.Idx → EReal)
    (i : Fin 4096) (j : Fin 8192) :
    G X W A B (ix2 i j) = ∑ s ∈ Finset.range 4, share X W A B i.val j.val s := by
  rw [G_eq_sum_term, sum_four_runs (term X W A B i.val j.val)]
  rfl

end Cert.Lora

end
-- ==== Proof.RefIsSpec.lean ====
/-
  The reference computes the specification: its three host operations, read at an index, are
    ∑ k, (W i k + ∑ r, A i r * B r k) * X k j
  term for term — the inner `dot_general` is the low-rank sum over `r`, the addition puts the weight entry in front of
  it in the same order as the specification does, and the outer `dot_general` is the sum over `k`.
-/
import proofs.«104144_j40372692583098_1_alg».proof.Proof.Gen.ReferenceIdeal.Read
import proofs.«104144_j40372692583098_1_alg».proof.Proof.Spec

noncomputable section

namespace Cert.Lora.Ref

open Cert.ReferenceIdeal Cert.ReferenceIdeal.Read Idealize.ShloMosaic Idealize.ShloMosaic.ValueIdx Cert.Lora

/-- The outer product's left operand index at output `(i, j)` and contraction position `k` is `(i, k)`. -/
theorem lidx_outer (i : Fin 4096) (j : Fin 8192) (k : Fin 4096) : lidx_main_v2 (ix2 i j) k = ix2 i k :=
  funext fun a => by match a with | ⟨0, _⟩ => rfl | ⟨1, _⟩ => rfl

/-- … and its right operand index is `(k, j)`. -/
theorem ridx_outer (i : Fin 4096) (j : Fin 8192) (k : Fin 4096) : ridx_main_v2 (ix2 i j) k = ix2 k j :=
  funext fun a => by match a with | ⟨0, _⟩ => rfl | ⟨1, _⟩ => rfl

/-- The low-rank product's left operand index at `(i, k)` and rank position `r` is `(i, r)`. -/
theorem lidx_inner (i k : Fin 4096) (r : Fin 16) : lidx_main_v0 (ix2 i k) r = ix2 i r :=
  funext fun a => by match a with | ⟨0, _⟩ => rfl | ⟨1, _⟩ => rfl

/-- … and its right operand index is `(r, k)`. -/
theorem ridx_inner (i k : Fin 4096) (r : Fin 16) : ridx_main_v0 (ix2 i k) r = ix2 r k :=
  funext fun a => by match a with | ⟨0, _⟩ => rfl | ⟨1, _⟩ => rfl

/-- THE REFERENCE IS THE SPECIFICATION: the last stage of the reference's run, as a function of the four argument
    arrays, is `G`. -/
theorem result_eq (x0 : (⟨S4096x8192, .f32⟩ : BufTy).Contents (Elt Ideal)) (x1 : (⟨S4096x4096, .f32⟩ : BufTy).Contents (Elt Ideal))
    (x2 : (⟨S4096x16, .f32⟩ : BufTy).Contents (Elt Ideal)) (x3 : (⟨S16x4096, .f32⟩ : BufTy).Contents (Elt Ideal)) :
    val_main_v2 (F := Ideal) x0 x1 x2 x3 = G x0 x1 x2 x3 := by
  funext idx
  obtain ⟨i, j, rfl⟩ : ∃ (i : Fin 4096) (j : Fin 8192), idx = ix2 i j := ⟨idx 0, idx 1, eq_ix2 idx⟩
  rw [val_main_v2_apply]
  refine Finset.sum_congr rfl fun k _ => ?_
  rw [val_main_v1_apply, val_main_v0_apply, lidx_outer, ridx_outer]
  simp only [lidx_inner, ridx_inner]
  rfl

end Cert.Lora.Ref

end
-- ==== Proof.Pieces.lean ====
/-
  What one pass of the body leaves, as the body's stored value of the blocks it was given.

  The grid's points fall into three kinds by their position `k` on the contracted axis. At `k = 0` the body first
  stores the zero block into the accumulator and then the accumulating value computed over that zero block; at
  `0 < k < 3` it stores the accumulating value over what the accumulator held; at `k = 3` it does the same and then
  copies the accumulator, read back, into the output block. In every case the accumulator ends at the accumulating
  value of the point's four input blocks (window order: weight, `A`, `B`, `X`) and of what it held before — the zero
  block at `k = 0` —, and at `k = 3` the output block ends at that same value.
-/
import proofs.«104144_j40372692583098_1_alg».proof.Proof.Gen.KernelIdeal.Frame
import Idealize.ShloMosaic.Lib.Pipeline.Value

set_option maxRecDepth 16384

noncomputable section

namespace Cert.Lora.Pieces

open Cert.KernelIdeal Cert.KernelIdeal.Gen Idealize.ShloMosaic Idealize.ShloMosaic.TcCoe Idealize.ShloMosaic.Tactic

variable {F : FTy → Type} [FloatOps F]

/-- A block is stored and loaded whole: from offset zero on both axes. -/
theorem hz : (![0, 0] : Fin 2 → Nat) = fun _ => 0 := funext fun a => by fin_cases a <;> rfl

/-- At the first position of a run the accumulator ends at the accumulating value over the zero block: the later
    store covers the reset, and its accumulator operand is the reset's value read back. -/
theorem acc_first (c : Dev nD) (i : grid0.Coords) (arg3 : Memref sig .tc .vmem S512x1024 .f32) (harg3 : arg3.IsWhole) (arg4 : Memref sig .tc .vmem S512x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i) (x0 : Vec F S512x1024 .f32) (x1 : Vec F S512x16 .f32) (x2 : Vec F S16x1024 .f32) (x3 : Vec F S1024x1024 .f32) :
    sout0_A_0 (F := F) c i arg3 harg3 arg4 harg4 arg5 harg5 arg6 harg6 arg7 harg7 arg8 harg8 hc0 hc1 x0 x1 x2 x3 = k0_pay2 x1 x2 x0 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz]
  simp only [View.readAt_eq_ld, harg3.read_unread, harg4.read_unread, harg5.read_unread, harg6.read_unread, harg8.read_unread, View.ld_unit_zero (S := S512x1024) hz, View.ld_unit_zero (S := S512x16) hz, View.ld_unit_zero (S := S16x1024) hz, View.ld_unit_zero (S := S1024x1024) hz, View.readCov_unit_zero (S := S512x1024) _ hz]

/-- At a middle position the accumulator ends at the accumulating value over what it held. -/
theorem acc_middle (c : Dev nD) (i : grid0.Coords) (arg3 : Memref sig .tc .vmem S512x1024 .f32) (harg3 : arg3.IsWhole) (arg4 : Memref sig .tc .vmem S512x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i) (x0 : Vec F S512x1024 .f32) (x1 : Vec F S512x16 .f32) (x2 : Vec F S16x1024 .f32) (x3 : Vec F S1024x1024 .f32) (xs0 : Vec F S512x1024 .f32) :
    sout0_B_0 (F := F) c i arg3 harg3 arg4 harg4 arg5 harg5 arg6 harg6 arg7 harg7 arg8 harg8 hc0 hc1 x0 x1 x2 x3 xs0 = k0_pay2 x1 x2 x0 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S512x1024) hz]
  simp only [View.readAt_eq_ld, harg3.read_unread, harg4.read_unread, harg5.read_unread, harg6.read_unread, harg8.read_unread, View.ld_unit_zero (S := S512x1024) hz, View.ld_unit_zero (S := S512x16) hz, View.ld_unit_zero (S := S16x1024) hz, View.ld_unit_zero (S := S1024x1024) hz, View.readCov_unit_zero (S := S512x1024) _ hz]

/-- At the last position the accumulator ends at the accumulating value over what it held … -/
theorem acc_last (c : Dev nD) (i : grid0.Coords) (arg3 : Memref sig .tc .vmem S512x1024 .f32) (harg3 : arg3.IsWhole) (arg4 : Memref sig .tc .vmem S512x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S512x16 .f32) (x2 : Vec F S16x1024 .f32) (x3 : Vec F S1024x1024 .f32) (xs0 : Vec F S512x1024 .f32) :
    sout0_C_0 (F := F) c i arg3 harg3 arg4 harg4 arg5 harg5 arg6 harg6 arg7 harg7 arg8 harg8 hc0 hc1 x0 x1 x2 x3 xs0 = k0_pay2 x1 x2 x0 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x1024) hz]
  simp only [View.readAt_eq_ld, harg3.read_unread, harg4.read_unread, harg5.read_unread, harg6.read_unread, harg8.read_unread, View.ld_unit_zero (S := S512x1024) hz, View.ld_unit_zero (S := S512x16) hz, View.ld_unit_zero (S := S16x1024) hz, View.ld_unit_zero (S := S1024x1024) hz, View.readCov_unit_zero (S := S512x1024) _ hz]

/-- … and the output block at the same value: the accumulator read back after that store. -/
theorem out_last (c : Dev nD) (i : grid0.Coords) (arg3 : Memref sig .tc .vmem S512x1024 .f32) (harg3 : arg3.IsWhole) (arg4 : Memref sig .tc .vmem S512x16 .f32) (harg4 : arg4.IsWhole) (arg5 : Memref sig .tc .vmem S16x1024 .f32) (harg5 : arg5.IsWhole) (arg6 : Memref sig .tc .vmem S1024x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i) (x0 : Vec F S512x1024 .f32) (x1 : Vec F S512x16 .f32) (x2 : Vec F S16x1024 .f32) (x3 : Vec F S1024x1024 .f32) (xs0 : Vec F S512x1024 .f32) :
    out0_C_4 (F := F) c i arg3 harg3 arg4 harg4 arg5 harg5 arg6 harg6 arg7 harg7 arg8 harg8 hc0 hc1 x0 x1 x2 x3 xs0 = k0_pay2 x1 x2 x0 x3 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S512x1024) hz]
  simp only [View.readAt_eq_ld, harg3.read_unread, harg4.read_unread, harg5.read_unread, harg6.read_unread, harg8.read_unread, View.ld_unit_zero (S := S512x1024) hz, View.ld_unit_zero (S := S512x16) hz, View.ld_unit_zero (S := S16x1024) hz, View.ld_unit_zero (S := S1024x1024) hz, View.readCov_unit_zero (S := S512x1024) _ hz]

end Cert.Lora.Pieces

end
-- ==== Proof.Body.lean ====
/-
  The kernel body's arithmetic, read at an index of its 512 × 1024 block.

  One pass of the body takes the block `w` of the weight (512 × 1024), `a` of `A` (512 × 16), `b` of `B` (16 × 1024),
  `x` of `X` (1024 × 1024) and what the accumulator held, `acc`, and leaves in the accumulator
    acc p q + ∑ k < 1024, (w p k + ∑ r < 16, a p r * b r k) * x k q.
  The casts to the narrower float format are the identity on extended reals, each matrix product into a zero
  accumulator is the plain sum of products over its one contracted axis, and the shape cast of a block to its own
  shape is the identity. The reset pass stores the zero block.
-/
import proofs.«104144_j40372692583098_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Lora.Body

open Cert.KernelIdeal Cert.KernelIdeal.Gen Idealize.ShloMosaic Idealize.ShloMosaic.ValueIdx

/-! ## The two matrix products' operand indices, axis by axis -/

theorem lhs_lowrank_0 (i : S512x1024.Idx) (q : dot_S512x16_S16x1024_S512x1024_1_0_0_1_n_n.contr.Idx) :
    (dot_S512x16_S16x1024_S512x1024_1_0_0_1_n_n.lhsIdx i q 0).val = (i 0).val := by
  unfold DotDims.lhsIdx
  rw [dif_neg (show ¬(0 : Fin S512x16.rank) ∈ dot_S512x16_S16x1024_S512x1024_1_0_0_1_n_n.lhsBatch by decide), dif_pos (show (0 : Fin S512x16.rank) ∈ dot_S512x16_S16x1024_S512x1024_1_0_0_1_n_n.lhsNonContracting by decide)]
  rfl
theorem lhs_lowrank_1 (i : S512x1024.Idx) (q : dot_S512x16_S16x1024_S512x1024_1_0_0_1_n_n.contr.Idx) :
    (dot_S512x16_S16x1024_S512x1024_1_0_0_1_n_n.lhsIdx i q 1).val = (q ⟨0, by decide⟩).val :=
  dot_S512x16_S16x1024_S512x1024_1_0_0_1_n_n.lhsIdx_val_of_single rfl i q
theorem rhs_lowrank_0 (i : S512x1024.Idx) (q : dot_S512x16_S16x1024_S512x1024_1_0_0_1_n_n.contr.Idx) :
    (dot_S512x16_S16x1024_S512x1024_1_0_0_1_n_n.rhsIdx i q 0).val = (q ⟨0, by decide⟩).val :=
  dot_S512x16_S16x1024_S512x1024_1_0_0_1_n_n.rhsIdx_val_of_single rfl i q
theorem rhs_lowrank_1 (i : S512x1024.Idx) (q : dot_S512x16_S16x1024_S512x1024_1_0_0_1_n_n.contr.Idx) :
    (dot_S512x16_S16x1024_S512x1024_1_0_0_1_n_n.rhsIdx i q 1).val = (i 1).val := by
  unfold DotDims.rhsIdx
  rw [dif_neg (show ¬(1 : Fin S16x1024.rank) ∈ dot_S512x16_S16x1024_S512x1024_1_0_0_1_n_n.rhsBatch by decide), dif_pos (show (1 : Fin S16x1024.rank) ∈ dot_S512x16_S16x1024_S512x1024_1_0_0_1_n_n.rhsNonContracting by decide)]
  rfl

theorem lhs_main_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_main_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_main_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_main_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## Each matrix product into the zero block, at an index -/

/-- The low-rank product of the `A` block and the `B` block at `(p, q)`: the sum over the 16 rank positions. -/
theorem lowrank_apply {φ₁ φ₂ : FTy} (a : FVec Ideal S512x16 φ₁) (b : FVec Ideal S16x1024 φ₂) (p : Fin 512) (q : Fin 1024) :
    matmul dot_S512x16_S16x1024_S512x1024_1_0_0_1_n_n none a b (constant (F := Ideal) S512x1024 .f32 0x00000000#32) (ix2 p q)
      = ∑ k : Fin 16, a (ix2 p k) * b (ix2 k q) := by
  show FloatOps.matmul dot_S512x16_S16x1024_S512x1024_1_0_0_1_n_n none a b (constant (F := Ideal) S512x1024 .f32 0x00000000#32) (ix2 p q) = _
  rw [Ideal.matmul_constant_zero_apply, ← Equiv.sum_comp (ValueIdx.contrEquiv1 dot_S512x16_S16x1024_S512x1024_1_0_0_1_n_n 16 rfl rfl).symm]
  refine Finset.sum_congr rfl fun k _ => ?_
  have hk := ValueIdx.contrEquiv1_symm_val dot_S512x16_S16x1024_S512x1024_1_0_0_1_n_n 16 rfl rfl k
  have el : dot_S512x16_S16x1024_S512x1024_1_0_0_1_n_n.lhsIdx (ix2 p q) ((ValueIdx.contrEquiv1 dot_S512x16_S16x1024_S512x1024_1_0_0_1_n_n 16 rfl rfl).symm k) = ix2 p k := funext fun a => Fin.ext (by
    match a with
    | ⟨0, _⟩ => exact lhs_lowrank_0 _ _
    | ⟨1, _⟩ => exact (lhs_lowrank_1 _ _).trans hk)
  have er : dot_S512x16_S16x1024_S512x1024_1_0_0_1_n_n.rhsIdx (ix2 p q) ((ValueIdx.contrEquiv1 dot_S512x16_S16x1024_S512x1024_1_0_0_1_n_n 16 rfl rfl).symm k) = ix2 k q := funext fun a => Fin.ext (by
    match a with
    | ⟨0, _⟩ => exact (rhs_lowrank_0 _ _).trans hk
    | ⟨1, _⟩ => exact rhs_lowrank_1 _ _)
  rw [el, er]

/-- The product of the effective-weight block and the `X` block at `(p, q)`: the sum over the block's 1024 contracted positions. -/
theorem main_apply {φ₁ φ₂ : FTy} (a : FVec Ideal S512x1024 φ₁) (b : FVec Ideal S1024x1024 φ₂) (p : Fin 512) (q : Fin 1024) :
    matmul dot_S512x1024_S1024x1024_S512x1024_1_0_0_1_n_n none a b (constant (F := Ideal) S512x1024 .f32 0x00000000#32) (ix2 p q)
      = ∑ k : Fin 1024, a (ix2 p k) * b (ix2 k q) := by
  show FloatOps.matmul dot_S512x1024_S1024x1024_S512x1024_1_0_0_1_n_n none a b (constant (F := Ideal) S512x1024 .f32 0x00000000#32) (ix2 p q) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_main_0 _ _
    | ⟨1, _⟩ => exact (lhs_main_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_main_0 _ _).trans hk
    | ⟨1, _⟩ => exact rhs_main_1 _ _)
  rw [el, er]

/-! ## The body's two stored values -/

/-- The reset pass stores zero everywhere. -/
theorem reset_apply (i : S512x1024.Idx) : k0_pay1 (F := Ideal) i = 0 := by
  unfold k0_pay1
  rw [shapeCast_self]
  show Ideal.ofBits .f32 0x00000000#32 = 0
  exact Ideal.ofBits_zero_f32

/-- THE ACCUMULATING PASS at `(p, q)`: what the accumulator held there, plus the block's share of the contraction. -/
theorem step_apply (a : Vec Ideal S512x16 .f32) (b : Vec Ideal S16x1024 .f32) (w : Vec Ideal S512x1024 .f32)
    (x : Vec Ideal S1024x1024 .f32) (acc : Vec Ideal S512x1024 .f32) (p : Fin 512) (q : Fin 1024) :
    k0_pay2 (F := Ideal) a b w x acc (ix2 p q)
      = acc (ix2 p q) + ∑ k : Fin 1024, (w (ix2 p k) + ∑ r : Fin 16, a (ix2 p r) * b (ix2 r k)) * x (ix2 k q) := by
  unfold k0_pay2
  rw [shapeCast_self]
  show acc (ix2 p q) + matmul dot_S512x1024_S1024x1024_S512x1024_1_0_0_1_n_n none _ _ (constant (F := Ideal) S512x1024 .f32 0x00000000#32) (ix2 p q) = _
  rw [main_apply]
  refine congrArg (acc (ix2 p q) + ·) (Finset.sum_congr rfl fun k _ => ?_)
  show (w (ix2 p k) + matmul dot_S512x16_S16x1024_S512x1024_1_0_0_1_n_n none _ _ (constant (F := Ideal) S512x1024 .f32 0x00000000#32) (ix2 p k)) * x (ix2 k q) = _
  rw [lowrank_apply]
  rfl

end Cert.Lora.Body

end
-- ==== Proof.Blocks.lean ====
/-
  The input blocks of a grid point, read off the argument arrays, and the point's contribution to the result.

  The grid is 8 × 8 × 4, the last axis fastest: point `t` has row-block `t / 32`, column-block `t / 4 % 8` and
  position `t % 4` on the contracted axis. At that point the body is given rows `512·(t/32) …` and columns
  `1024·(t%4) …` of the weight, the same rows of `A`, the same columns of `B`, and rows `1024·(t%4) …`, columns
  `1024·(t/4%8) …` of `X`. So what the accumulating pass adds at entry `(p, q)` of the block is the share of run
  `t % 4` in entry `(512·(t/32) + p, 1024·(t/4%8) + q)` of the result.
-/
import proofs.«104144_j40372692583098_1_alg».proof.Proof.Gen.KernelIdeal.Frame
import proofs.«104144_j40372692583098_1_alg».proof.Proof.Spec

set_option maxRecDepth 16384

noncomputable section

namespace Cert.Lora.Blocks

open Cert.KernelIdeal Cert.KernelIdeal.Gen Idealize.ShloMosaic Idealize.ShloMosaic.TcCoe Idealize.ShloMosaic.ValueIdx Cert.Lora

variable (m : (ℓ : Loc nD τ sig) → Buf (Elt Ideal) ℓ)

/-- The four argument arrays as the region finds them, each at its literal type … -/
abbrev Xarr (c : Dev nD) : Vec Ideal S4096x8192 .f32 := V m c main_arg0
abbrev Warr (c : Dev nD) : Vec Ideal S4096x4096 .f32 := V m c main_arg1
abbrev Aarr (c : Dev nD) : Vec Ideal S4096x16 .f32 := V m c main_arg2
abbrev Barr (c : Dev nD) : Vec Ideal S16x4096 .f32 := V m c main_arg3

/-- … and the four blocks the body is given at point `t` (window order: weight, `A`, `B`, `X`). -/
abbrev wblk (c : Dev nD) (t : Fin cfg0.N) : Vec Ideal S512x1024 .f32 := iblk m c 0 t
abbrev ablk (c : Dev nD) (t : Fin cfg0.N) : Vec Ideal S512x16 .f32 := iblk m c 1 t
abbrev bblk (c : Dev nD) (t : Fin cfg0.N) : Vec Ideal S16x1024 .f32 := iblk m c 2 t
abbrev xblk (c : Dev nD) (t : Fin cfg0.N) : Vec Ideal S1024x1024 .f32 := iblk m c 3 t

/-- The printed index maps in closed form, decided over the grid's 256 points. -/
theorem idx_facts : ∀ t : Fin cfg0.N,
    win0_0.index t (0 : Fin 2) = t.val / 32 ∧ win0_0.index t (1 : Fin 2) = t.val % 4
    ∧ win0_1.index t (0 : Fin 2) = t.val / 32 ∧ win0_1.index t (1 : Fin 2) = 0
    ∧ win0_2.index t (0 : Fin 2) = 0 ∧ win0_2.index t (1 : Fin 2) = t.val % 4
    ∧ win0_3.index t (0 : Fin 2) = t.val % 4 ∧ win0_3.index t (1 : Fin 2) = t.val / 4 % 8
    ∧ win0_4.index t (0 : Fin 2) = t.val / 32 ∧ win0_4.index t (1 : Fin 2) = t.val / 4 % 8 :=
  (by decide +kernel : ∀ t : Fin grid0.N, _)

/-- The grid has 256 points. -/
theorem lt_256 (t : Fin cfg0.N) : t.val < 256 := lt_of_lt_of_eq t.isLt (show cfg0.N = 256 from N_0)

/-- The weight block at `(p, k)` is the weight at row `512·(t/32) + p`, column `1024·(t%4) + k`. -/
theorem wblk_apply (c : Dev nD) (t : Fin cfg0.N) (p : Fin 512) (k : Fin 1024)
    (hr : 512 * (t.val / 32) + p.val < 4096) (hk : 1024 * (t.val % 4) + k.val < 4096) :
    wblk m c t (ix2 p k) = Warr m c (ix2 ⟨512 * (t.val / 32) + p.val, hr⟩ ⟨1024 * (t.val % 4) + k.val, hk⟩) := by
  obtain ⟨e0, e1, -⟩ := idx_facts t
  show V m c main_arg1 (((cfg0.win 0).blk t).view.emb (ix2 p k)) = V m c main_arg1 _
  refine congrArg (V m c main_arg1) (funext fun a => Fin.ext ?_)
  match a with
  | ⟨0, _⟩ => show win0_0.index t (0 : Fin 2) * 512 + 1 * p.val = 512 * (t.val / 32) + p.val; omega
  | ⟨1, _⟩ => show win0_0.index t (1 : Fin 2) * 1024 + 1 * k.val = 1024 * (t.val % 4) + k.val; omega

/-- The `A` block at `(p, r)` is `A` at row `512·(t/32) + p`, column `r`. -/
theorem ablk_apply (c : Dev nD) (t : Fin cfg0.N) (p : Fin 512) (r : Fin 16)
    (hr : 512 * (t.val / 32) + p.val < 4096) :
    ablk m c t (ix2 p r) = Aarr m c (ix2 ⟨512 * (t.val / 32) + p.val, hr⟩ r) := by
  obtain ⟨-, -, e0, e1, -⟩ := idx_facts t
  show V m c main_arg2 (((cfg0.win 1).blk t).view.emb (ix2 p r)) = V m c main_arg2 _
  refine congrArg (V m c main_arg2) (funext fun a => Fin.ext ?_)
  match a with
  | ⟨0, _⟩ => show win0_1.index t (0 : Fin 2) * 512 + 1 * p.val = 512 * (t.val / 32) + p.val; omega
  | ⟨1, _⟩ => show win0_1.index t (1 : Fin 2) * 16 + 1 * r.val = r.val; omega

/-- The `B` block at `(r, k)` is `B` at row `r`, column `1024·(t%4) + k`. -/
theorem bblk_apply (c : Dev nD) (t : Fin cfg0.N) (r : Fin 16) (k : Fin 1024)
    (hk : 1024 * (t.val % 4) + k.val < 4096) :
    bblk m c t (ix2 r k) = Barr m c (ix2 r ⟨1024 * (t.val % 4) + k.val, hk⟩) := by
  obtain ⟨-, -, -, -, e0, e1, -⟩ := idx_facts t
  show V m c main_arg3 (((cfg0.win 2).blk t).view.emb (ix2 r k)) = V m c main_arg3 _
  refine congrArg (V m c main_arg3) (funext fun a => Fin.ext ?_)
  match a with
  | ⟨0, _⟩ => show win0_2.index t (0 : Fin 2) * 16 + 1 * r.val = r.val; omega
  | ⟨1, _⟩ => show win0_2.index t (1 : Fin 2) * 1024 + 1 * k.val = 1024 * (t.val % 4) + k.val; omega

/-- The `X` block at `(k, q)` is `X` at row `1024·(t%4) + k`, column `1024·(t/4%8) + q`. -/
theorem xblk_apply (c : Dev nD) (t : Fin cfg0.N) (k : Fin 1024) (q : Fin 1024)
    (hk : 1024 * (t.val % 4) + k.val < 4096) (hc : 1024 * (t.val / 4 % 8) + q.val < 8192) :
    xblk m c t (ix2 k q) = Xarr m c (ix2 ⟨1024 * (t.val % 4) + k.val, hk⟩ ⟨1024 * (t.val / 4 % 8) + q.val, hc⟩) := by
  obtain ⟨-, -, -, -, -, -, e0, e1, -⟩ := idx_facts t
  show V m c main_arg0 (((cfg0.win 3).blk t).view.emb (ix2 k q)) = V m c main_arg0 _
  refine congrArg (V m c main_arg0) (funext fun a => Fin.ext ?_)
  match a with
  | ⟨0, _⟩ => show win0_3.index t (0 : Fin 2) * 1024 + 1 * k.val = 1024 * (t.val % 4) + k.val; omega
  | ⟨1, _⟩ => show win0_3.index t (1 : Fin 2) * 1024 + 1 * q.val = 1024 * (t.val / 4 % 8) + q.val; omega

/-- THE POINT'S CONTRIBUTION: the sum the accumulating pass adds at `(p, q)`, over the point's blocks, is the share
    of run `t % 4` in the result's entry at row `512·(t/32) + p`, column `1024·(t/4%8) + q`. -/
theorem addend_eq (c : Dev nD) (t : Fin cfg0.N) (p : Fin 512) (q : Fin 1024) :
    ∑ k : Fin 1024, (wblk m c t (ix2 p k) + ∑ r : Fin 16, ablk m c t (ix2 p r) * bblk m c t (ix2 r k)) * xblk m c t (ix2 k q)
      = share (Xarr m c) (Warr m c) (Aarr m c) (Barr m c) (512 * (t.val / 32) + p.val) (1024 * (t.val / 4 % 8) + q.val) (t.val % 4) := by
  have hN := lt_256 t
  have hp := p.isLt
  have hq := q.isLt
  have hr : 512 * (t.val / 32) + p.val < 4096 := by omega
  have hc : 1024 * (t.val / 4 % 8) + q.val < 8192 := by omega
  unfold share
  refine Finset.sum_congr rfl fun k _ => ?_
  have hk : 1024 * (t.val % 4) + k.val < 4096 := by have := k.isLt; omega
  rw [term_of_lt _ _ _ _ hr hc hk, wblk_apply m c t p k hr hk, xblk_apply m c t k q hk hc]
  unfold weff
  refine congrArg (· * _) (congrArg (_ + ·) (Finset.sum_congr rfl fun r _ => ?_))
  rw [ablk_apply m c t p r hr, bblk_apply m c t r k hk]

end Cert.Lora.Blocks

end
-- ==== Proof.Fold.lean ====
/-
  The accumulator over a run of four points.

  Points `4·u, 4·u + 1, 4·u + 2, 4·u + 3` share their row-block and column-block and walk the contracted axis. The
  first resets the accumulator and adds its share; each later one adds its share to what the point before left. So
  after point `t` the accumulator holds, entry by entry, zero plus the shares of the run's points up to `t`, and at
  the run's last point the output block is given the same contents.
-/
import proofs.«104144_j40372692583098_1_alg».proof.Proof.Gen.KernelIdeal.Value
import proofs.«104144_j40372692583098_1_alg».proof.Proof.Pieces
import proofs.«104144_j40372692583098_1_alg».proof.Proof.Body
import proofs.«104144_j40372692583098_1_alg».proof.Proof.Blocks

set_option maxRecDepth 16384

noncomputable section

namespace Cert.Lora.Fold

open Cert.KernelIdeal Cert.KernelIdeal.Gen Idealize.ShloMosaic Idealize.ShloMosaic.TcCoe Idealize.ShloMosaic.ValueIdx
open Cert.Lora Cert.Lora.Blocks

variable (m : (ℓ : Loc nD τ sig) → Buf (Elt Ideal) ℓ)

/-- What point `n` adds to the accumulator at an entry of the block, as a function of every natural `n`: the share
    of run `n % 4` in the result's entry at the block's place. -/
def addend (c : Dev nD) (n : ℕ) (i : S512x1024.Idx) : EReal :=
  share (Xarr m c) (Warr m c) (Aarr m c) (Barr m c) (512 * (n / 32) + (i 0).val) (1024 * (n / 4 % 8) + (i 1).val) (n % 4)

/-- A run's first point leaves zero plus its share, whatever the accumulator held. -/
theorem step_first (c : Dev nD) (n : ℕ) (h : n < cfg0.N) (h0 : n % 4 = 0) (acc : Vec Ideal S512x1024 .f32)
    (i : S512x1024.Idx) : Value.scAt0_0 m c n h acc i = 0 + addend m c n i := by
  obtain ⟨p, q, rfl⟩ : ∃ (p : Fin 512) (q : Fin 1024), i = ix2 p q := ⟨i 0, i 1, eq_ix2 i⟩
  have h1 : ¬n % 4 = 3 := by omega
  unfold Value.scAt0_0
  rw [dif_pos h0, dif_neg h1]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (wblk m c (⟨n, h⟩ : Fin cfg0.N)) (ablk m c (⟨n, h⟩ : Fin cfg0.N)) (bblk m c (⟨n, h⟩ : Fin cfg0.N)) (xblk m c (⟨n, h⟩ : Fin cfg0.N))) (ix2 p q)).trans ?_
  rw [Body.step_apply, Body.reset_apply]
  exact congrArg (0 + ·) (addend_eq m c (⟨n, h⟩ : Fin cfg0.N) p q)

/-- A later point of the run adds its share to what the accumulator held. -/
theorem step_later (c : Dev nD) (n : ℕ) (h : n < cfg0.N) (h0 : ¬n % 4 = 0) (acc : Vec Ideal S512x1024 .f32)
    (i : S512x1024.Idx) : Value.scAt0_0 m c n h acc i = acc i + addend m c n i := by
  obtain ⟨p, q, rfl⟩ : ∃ (p : Fin 512) (q : Fin 1024), i = ix2 p q := ⟨i 0, i 1, eq_ix2 i⟩
  unfold Value.scAt0_0
  rw [dif_neg h0]
  by_cases h1 : n % 4 = 3
  · rw [dif_pos h1]
    refine (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (wblk m c (⟨n, h⟩ : Fin cfg0.N)) (ablk m c (⟨n, h⟩ : Fin cfg0.N)) (bblk m c (⟨n, h⟩ : Fin cfg0.N)) (xblk m c (⟨n, h⟩ : Fin cfg0.N)) acc) (ix2 p q)).trans ?_
    rw [Body.step_apply]
    exact congrArg (acc (ix2 p q) + ·) (addend_eq m c (⟨n, h⟩ : Fin cfg0.N) p q)
  · rw [dif_neg h1]
    refine (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (wblk m c (⟨n, h⟩ : Fin cfg0.N)) (ablk m c (⟨n, h⟩ : Fin cfg0.N)) (bblk m c (⟨n, h⟩ : Fin cfg0.N)) (xblk m c (⟨n, h⟩ : Fin cfg0.N)) acc) (ix2 p q)).trans ?_
    rw [Body.step_apply]
    exact congrArg (acc (ix2 p q) + ·) (addend_eq m c (⟨n, h⟩ : Fin cfg0.N) p q)

/-- THE ACCUMULATOR AFTER POINT `t`: zero plus the shares of the points of `t`'s run up to `t`. -/
theorem acc_after (c : Dev nD) (t : Fin cfg0.N) (i : S512x1024.Idx) :
    (outsAt0 m c t.val t.isLt).2 i = 0 + ∑ s ∈ Finset.range (t.val % 4 + 1), addend m c (4 * (t.val / 4) + s) i := by
  rw [Value.soutsAt0_0_eq m c t]
  exact Pipeline.accAt_add_apply (β := EReal) (fun n h => Value.scAt0_0 m c n h (VS0_0.read (Elt Ideal) VS0_0.junk)) (Value.scAt0_0 m c)
    (fun _ => 0) (addend m c) (4 * (t.val / 4)) 3
    (fun h i => step_first m c _ h (by omega) _ i)
    (fun n h acc i hb he => step_later m c n h (by omega) acc i)
    (t.val % 4) (by omega) _ i

/-- At a run's last point the output block is left holding what the accumulator holds. -/
theorem out_eq_acc (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (wblk m c t) (ablk m c t) (bblk m c t) (xblk m c t) (outsAt0 m c (t.val - 1) (Nat.lt_of_le_of_lt (Nat.sub_le _ _) t.isLt)).2).trans
    (Pieces.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h1) (wblk m c t) (ablk m c t) (bblk m c t) (xblk m c t) (outsAt0 m c (t.val - 1) (Nat.lt_of_le_of_lt (Nat.sub_le _ _) t.isLt)).2).symm

end Cert.Lora.Fold

end
-- ==== Proof.Result.lean ====
/-
  From blocks to the whole result array.

  The output block is written back at each run's last point `t` (`t % 4 = 3`), holding the accumulator's contents:
  zero plus the four shares of the run, which is the result's entry at row `512·(t/32) + p`, column
  `1024·(t/4%8) + q` — the block of the specification `G` that the point's window addresses. Every entry `(i, j)` of
  the result lies in the block written back at point `32·(i/512) + 4·(j/1024) + 3`, so after the run the whole array
  is `G` of the argument arrays.
-/
import proofs.«104144_j40372692583098_1_alg».proof.Proof.Fold

set_option maxRecDepth 16384

noncomputable section

namespace Cert.Lora.Result

open Cert.KernelIdeal Cert.KernelIdeal.Gen Idealize.ShloMosaic Idealize.ShloMosaic.TcCoe Idealize.ShloMosaic.ValueIdx Idealize.SL.Sem
open Cert.Lora Cert.Lora.Blocks Cert.Lora.Fold

variable (m : (ℓ : Loc nD τ sig) → Buf (Elt Ideal) ℓ) (ρ : Dev nD → PrngReg)

/-- The specification at the argument arrays as the region finds them. -/
abbrev spec (c : Dev nD) : Vec Ideal S4096x8192 .f32 := G (Xarr m c) (Warr m c) (Aarr m c) (Barr m c)

/-- WHAT A RUN'S LAST POINT WRITES BACK is its block of the specification. -/
theorem flushed_eq (c : Dev nD) (t : Fin cfg0.N) (hf : (cfg0.win 4).flush t = true) :
    (dats m 0 c).flushed 4 t = ((cfg0.win 4).blk t).view.read (Elt Ideal) (spec m c) := by
  have h1 : t.val % 4 = 3 := (flush0_4 t).mp hf
  have h0 : ¬t.val % 4 = 0 := by omega
  have hN := lt_256 t
  obtain ⟨-, -, -, -, -, -, -, -, e0, e1⟩ := idx_facts t
  rw [Value.flushed4, out_eq_acc m c t h0 h1]
  funext j
  show (outsAt0 m c t.val t.isLt).2 j = spec m c (((cfg0.win 4).blk t).view.emb j)
  have hj0 : (j 0).val < 512 := (j 0).isLt
  have hj1 : (j 1).val < 1024 := (j 1).isLt
  have hr : 512 * (t.val / 32) + (j 0).val < 4096 := by omega
  have hc : 1024 * (t.val / 4 % 8) + (j 1).val < 8192 := by omega
  have hemb : ((cfg0.win 4).blk t).view.emb j
      = ix2 (⟨512 * (t.val / 32) + (j 0).val, hr⟩ : Fin 4096) (⟨1024 * (t.val / 4 % 8) + (j 1).val, hc⟩ : Fin 8192) :=
    funext fun a => Fin.ext (by
      match a with
      | ⟨0, _⟩ => show win0_4.index t (0 : Fin 2) * 512 + 1 * (j 0).val = 512 * (t.val / 32) + (j 0).val; omega
      | ⟨1, _⟩ => show win0_4.index t (1 : Fin 2) * 1024 + 1 * (j 1).val = 1024 * (t.val / 4 % 8) + (j 1).val; omega)
  rw [hemb]
  refine (acc_after m c t j).trans ?_
  rw [zero_add, h1]
  refine (Finset.sum_congr rfl fun s hs => ?_).trans (G_eq_four_shares _ _ _ _ _ _).symm
  have hs4 : s < 4 := Finset.mem_range.mp hs
  show share _ _ _ _ (512 * ((4 * (t.val / 4) + s) / 32) + (j 0).val) (1024 * ((4 * (t.val / 4) + s) / 4 % 8) + (j 1).val) ((4 * (t.val / 4) + s) % 4) = share _ _ _ _ (512 * (t.val / 32) + (j 0).val) (1024 * (t.val / 4 % 8) + (j 1).val) s
  rw [show (4 * (t.val / 4) + s) / 32 = t.val / 32 by omega, show (4 * (t.val / 4) + s) / 4 % 8 = t.val / 4 % 8 by omega,
    show (4 * (t.val / 4) + s) % 4 = s by omega]

/-- An entry of the result array is in point `t`'s output block iff each coordinate is in the block's range. -/
theorem mem_blk (t : Fin cfg0.N) (i : S4096x8192.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0).slice (win0_4.rect t)).set ↔ _
  rw [View.set_slice_whole, Rect.mem_set_unit]
  exact Iff.rfl

/-- THE COVER: entry `(i, j)` lies in the block written back at the last point of the run of row-block `i / 512` and
    column-block `j / 1024`. -/
theorem cover (i : S4096x8192.Idx) :
    ∃ t : Fin cfg0.N, (cfg0.win 4).flush t = true ∧ i ∈ ((cfg0.win 4).blk t).view.set := by
  have hi0 : (i 0).val < 4096 := (i 0).isLt
  have hi1 : (i 1).val < 8192 := (i 1).isLt
  have hn : 32 * ((i 0).val / 512) + 4 * ((i 1).val / 1024) + 3 < cfg0.N := by
    rw [show cfg0.N = 256 from N_0]; omega
  obtain ⟨-, -, -, -, -, -, -, -, e0, e1⟩ := idx_facts ⟨_, hn⟩
  have e0' : win0_4.index ⟨_, hn⟩ (0 : Fin 2) = (32 * ((i 0).val / 512) + 4 * ((i 1).val / 1024) + 3) / 32 := e0
  have e1' : win0_4.index ⟨_, hn⟩ (1 : Fin 2) = (32 * ((i 0).val / 512) + 4 * ((i 1).val / 1024) + 3) / 4 % 8 := e1
  refine ⟨⟨_, hn⟩, (flush0_4 _).mpr (by show (32 * ((i 0).val / 512) + 4 * ((i 1).val / 1024) + 3) % 4 = 3; omega), ?_⟩
  rw [mem_blk]
  intro a
  match a with
  | ⟨0, _⟩ =>
    show win0_4.index ⟨_, hn⟩ (0 : Fin 2) * 512 ≤ (i 0).val ∧ (i 0).val < win0_4.index ⟨_, hn⟩ (0 : Fin 2) * 512 + 512
    rw [e0']; omega
  | ⟨1, _⟩ =>
    show win0_4.index ⟨_, hn⟩ (1 : Fin 2) * 1024 ≤ (i 1).val ∧ (i 1).val < win0_4.index ⟨_, hn⟩ (1 : Fin 2) * 1024 + 1024
    rw [e1']; omega

/-- THE RESULT ARRAY after the run is the specification of the argument arrays. -/
theorem final (c : Dev nD) : (dats m 0 c).arrAt 4 cfg0.N = spec m c :=
  (dats m 0 c).arrAt_eq_of_cover 4 (spec m c) (fun t hf => flushed_eq m c t hf) cover

/-- The kernel's run, re-posted: the result array at the specification of the arguments as launched, the arguments
    unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Lora.Result

end
-- ==== Proof.lean ====
/-
  A rank-16 update folded into a matrix product: `(W + A · B) · X` over f32[4096, 4096], f32[4096, 16],
  f32[16, 4096] and f32[4096, 8192].

  The kernel tiles the result into 512 × 1024 blocks and, for each, walks the contracted axis in four runs of 1024:
  it forms the block of `W + A · B` for the run (the low-rank product of the run's 512 × 16 and 16 × 1024 blocks added
  to the weight block), multiplies it with the run's 1024 × 1024 block of `X`, and adds that to an accumulator it
  zeroed at the first run; at the fourth run the accumulator is written to the result. The reference forms `A · B`
  whole, adds `W`, and multiplies by `X`.

  On the extended reals the narrowing casts are the identity and every product and sum is exact, so both compute
    out i j = ∑ k < 4096, (W i k + ∑ r < 16, A i r * B r k) * X k j,
  the kernel as zero plus four partial sums over consecutive `k`, the reference as one sum. Regrouping a finite sum
  needs only that addition is commutative and associative, which holds on the extended reals with their
  infinities; no finiteness of the inputs is used.

  Proof/Spec.lean states the function and the regrouping; Proof/RefIsSpec.lean reads the reference's three
  operations as that function; Proof/Body.lean reads one pass of the kernel body at an entry of its block;
  Proof/Pieces.lean says what each kind of pass leaves in the accumulator and the output block; Proof/Blocks.lean
  places a point's blocks in the arrays; Proof/Fold.lean sums a run; Proof/Result.lean covers the result array.
  The three frames are the generated ones (the reference's is its generated run with the value dropped), and the
  idealization rewrote nothing, so its conjunct is `True`.
-/
import proofs.«104144_j40372692583098_1_alg».proof.Defs
import proofs.«104144_j40372692583098_1_alg».proof.Proof.Gen.Kernel
import proofs.«104144_j40372692583098_1_alg».proof.Proof.Gen.Kernel.Skeleton
import proofs.«104144_j40372692583098_1_alg».proof.Proof.Gen.Kernel.Launch
import proofs.«104144_j40372692583098_1_alg».proof.Proof.Gen.Kernel.Points
import proofs.«104144_j40372692583098_1_alg».proof.Proof.Gen.Kernel.Frame
import proofs.«104144_j40372692583098_1_alg».proof.Proof.Gen.KernelIdeal
import proofs.«104144_j40372692583098_1_alg».proof.Proof.Gen.KernelIdeal.Skeleton
import proofs.«104144_j40372692583098_1_alg».proof.Proof.Gen.KernelIdeal.Launch
import proofs.«104144_j40372692583098_1_alg».proof.Proof.Gen.KernelIdeal.Points
import proofs.«104144_j40372692583098_1_alg».proof.Proof.Gen.KernelIdeal.Frame
import proofs.«104144_j40372692583098_1_alg».proof.Proof.Gen.ReferenceIdeal
import proofs.«104144_j40372692583098_1_alg».proof.Proof.Gen.Pre_finite_inputs
import proofs.«104144_j40372692583098_1_alg».proof.Proof.Gen.KernelIdeal.Value
import proofs.«104144_j40372692583098_1_alg».proof.Proof.Gen.ReferenceIdeal.Run
import proofs.«104144_j40372692583098_1_alg».proof.Proof.Gen.ReferenceIdeal.Read
import Idealize.ShloMosaic.Adequacy
import Idealize.ShloMosaic.Init
import proofs.«104144_j40372692583098_1_alg».proof.Proof.RefIsSpec
import proofs.«104144_j40372692583098_1_alg».proof.Proof.Result

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `(W + A · B) · X` of the arguments: the kernel's by the cover of its
    blocks, the reference's by reading its operations; the arguments agree, so the two arrays are equal. -/
theorem algebraic : Cert.algebraic_KernelIdeal_ReferenceIdeal := by
  intro m ρ m' ρ' _ hagree
  refine ⟨_, Cert.Lora.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v2_eq _ _ _ _).trans (Cert.Lora.Ref.result_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
